-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1x16x64 : Shape := ⟨3, ![1, 16, 64]⟩
abbrev S64x16x64 : Shape := ⟨3, ![64, 16, 64]⟩
abbrev S64x16x1 : Shape := ⟨3, ![64, 16, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1x16x64 : S_.BroadcastsInDim S1x16x64 (![] : Fin 0 → Fin S1x16x64.rank)
  reducesTo_S1x16x64_S_d0_1_2 : S1x16x64.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S64x16x1 : S_.BroadcastsInDim S64x16x1 (![] : Fin 0 → Fin S64x16x1.rank)
  reducesTo_S64x16x1_S_d0_1_2 : S64x16x1.ReducesTo [0, 1, 2] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S64x16x64 .f32) (main_arg5 : FVec F S64x16x64 .f32) (main_arg6 : FVec F S64x16x1 .f32) (main_arg7 : FVec F S4096 .f32) (main_v13 : IVec S_ 1) (main_v16 : IVec S64x16x64 1) : IVec S_ 1 :=
  let main_c_5 : IVec S_ 1 := constantI S_ 1 1#1
  let main_v17 : IVec S_ 1 := (fun x v => Host.reduce IntOp.andi x v reducesTo_S64x16x64_S_d0_1_2 h_S_) main_v16 main_c_5
  let main_v18 : IVec S_ 1 := andi main_v13 main_v17
  let main_v19 : FVec F S64x16x64 .f32 := Host.absf main_arg4
  let main_cst_6 : FVec F S_ .f32 := constant S_ .f32 0x7F800000#32
  let main_v20 : FVec F S64x16x64 .f32 := broadcastInDim S64x16x64 ![] bcast_S_S64x16x64 main_cst_6
  let main_v21 : IVec S64x16x64 1 := cmpf .olt main_v19 main_v20
  let main_c_7 : IVec S_ 1 := constantI S_ 1 1#1
  let main_v22 : IVec S_ 1 := (fun x v => Host.reduce IntOp.andi x v reducesTo_S64x16x64_S_d0_1_2 h_S_) main_v21 main_c_7
  let main_v23 : IVec S_ 1 := andi main_v18 main_v22
  let main_v24 : FVec F S64x16x64 .f32 := Host.absf main_arg5
  let main_cst_8 : FVec F S_ .f32 := constant S_ .f32 0x7F800000#32
  let main_v25 : FVec F S64x16x64 .f32 := broadcastInDim S64x16x64 ![] bcast_S_S64x16x64 main_cst_8
  let main_v26 : IVec S64x16x64 1 := cmpf .olt main_v24 main_v25
  let main_c_9 : IVec S_ 1 := constantI S_ 1 1#1
  let main_v27 : IVec S_ 1 := (fun x v => Host.reduce IntOp.andi x v reducesTo_S64x16x64_S_d0_1_2 h_S_) main_v26 main_c_9
  let main_v28 : IVec S_ 1 := andi main_v23 main_v27
  let main_v29 : FVec F S64x16x1 .f32 := Host.absf main_arg6
  let main_cst_10 : FVec F S_ .f32 := constant S_ .f32 0x7F800000#32
  let main_v30 : FVec F S64x16x1 .f32 := broadcastInDim S64x16x1 ![] bcast_S_S64x16x1 main_cst_10
  let main_v31 : IVec S64x16x1 1 := cmpf .olt main_v29 main_v30
  let main_c_11 : IVec S_ 1 := constantI S_ 1 1#1
  let main_v32 : IVec S_ 1 := (fun x v => Host.reduce IntOp.andi x v reducesTo_S64x16x1_S_d0_1_2 h_S_) main_v31 main_c_11
  let main_v33 : IVec S_ 1 := andi main_v28 main_v32
  fn_part2 (F := F) main_arg7 main_v33

def fn {F : FTy → Type} [FloatOps F] (main_arg0 : FVec F S8192x4096 .f32) (main_arg1 : FVec F S1x16x64 .f32) (main_arg2 : FVec F S64x16x64 .f32) (main_arg3 : FVec F S64x16x64 .f32) (main_arg4 : FVec F S64x16x64 .f32) (main_arg5 : FVec F S64x16x64 .f32) (main_arg6 : FVec F S64x16x1 .f32) (main_arg7 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1x16x64 .f32 := Host.absf main_arg1
  let main_cst_0 : FVec F S_ .f32 := constant S_ .f32 0x7F800000#32
  let main_v5 : FVec F S1x16x64 .f32 := broadcastInDim S1x16x64 ![] bcast_S_S1x16x64 main_cst_0
  let main_v6 : IVec S1x16x64 1 := cmpf .olt main_v4 main_v5
  let main_c_1 : IVec S_ 1 := constantI S_ 1 1#1
  let main_v7 : IVec S_ 1 := (fun x v => Host.reduce IntOp.andi x v reducesTo_S1x16x64_S_d0_1_2 h_S_) main_v6 main_c_1
  let main_v8 : IVec S_ 1 := andi main_v3 main_v7
  let main_v9 : FVec F S64x16x64 .f32 := Host.absf main_arg2
  let main_cst_2 : FVec F S_ .f32 := constant S_ .f32 0x7F800000#32
  let main_v10 : FVec F S64x16x64 .f32 := broadcastInDim S64x16x64 ![] bcast_S_S64x16x64 main_cst_2
  let main_v11 : IVec S64x16x64 1 := cmpf .olt main_v9 main_v10
  let main_c_3 : IVec S_ 1 := constantI S_ 1 1#1
  let main_v12 : IVec S_ 1 := (fun x v => Host.reduce IntOp.andi x v reducesTo_S64x16x64_S_d0_1_2 h_S_) main_v11 main_c_3
  let main_v13 : IVec S_ 1 := andi main_v8 main_v12
  let main_v14 : FVec F S64x16x64 .f32 := Host.absf main_arg3
  let main_cst_4 : FVec F S_ .f32 := constant S_ .f32 0x7F800000#32
  let main_v15 : FVec F S64x16x64 .f32 := broadcastInDim S64x16x64 ![] bcast_S_S64x16x64 main_cst_4
  let main_v16 : IVec S64x16x64 1 := cmpf .olt main_v14 main_v15
  fn_part1 (F := F) main_arg4 main_arg5 main_arg6 main_arg7 main_v13 main_v16
-- ==== Kernel.lean ====
abbrev S8192x4096 : Shape := ⟨2, ![8192, 4096]⟩
abbrev S1x16x64 : Shape := ⟨3, ![1, 16, 64]⟩
abbrev S64x16x64 : Shape := ⟨3, ![64, 16, 64]⟩
abbrev S64x16x1 : Shape := ⟨3, ![64, 16, 1]⟩
abbrev S4096 : Shape := ⟨1, ![4096]⟩
abbrev S16x64 : Shape := ⟨2, ![16, 64]⟩
abbrev S64x1024 : Shape := ⟨2, ![64, 1024]⟩
abbrev S16x1024 : Shape := ⟨2, ![16, 1024]⟩
abbrev S256x64 : Shape := ⟨2, ![256, 64]⟩
abbrev S256x1024 : Shape := ⟨2, ![256, 1024]⟩
abbrev S4096x64 : Shape := ⟨2, ![4096, 64]⟩
abbrev S64x16 : Shape := ⟨2, ![64, 16]⟩
abbrev S1024x64 : Shape := ⟨2, ![1024, 64]⟩
abbrev S1024x16 : Shape := ⟨2, ![1024, 16]⟩
abbrev S64x256 : Shape := ⟨2, ![64, 256]⟩
abbrev S1024x256 : Shape := ⟨2, ![1024, 256]⟩
abbrev S64x4096 : Shape := ⟨2, ![64, 4096]⟩
abbrev S1x4096 : Shape := ⟨2, ![1, 4096]⟩
abbrev S512x4096 : Shape := ⟨2, ![512, 4096]⟩
abbrev S512x64 : Shape := ⟨2, ![512, 64]⟩

abbrev nBuf : Space → Nat
  | .hbm => 24
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x16x64, .f32⟩
  | .hbm, ⟨2, _⟩ => ⟨S64x16x64, .f32⟩
  | .hbm, ⟨3, _⟩ => ⟨S64x16x64, .f32⟩
  | .hbm, ⟨4, _⟩ => ⟨S64x16x64, .f32⟩
  | .hbm, ⟨5, _⟩ => ⟨S64x16x64, .f32⟩
  | .hbm, ⟨6, _⟩ => ⟨S64x16x1, .f32⟩
  | .hbm, ⟨7, _⟩ => ⟨S4096, .f32⟩
  | .hbm, ⟨8, _⟩ => ⟨S16x64, .f32⟩
  | .hbm, ⟨9, _⟩ => ⟨S64x1024, .f32⟩
  | .hbm, ⟨10, _⟩ => ⟨S16x1024, .f32⟩
  | .hbm, ⟨11, _⟩ => ⟨S256x64, .f32⟩
  | .hbm, ⟨12, _⟩ => ⟨S64x1024, .f32⟩
  | .hbm, ⟨13, _⟩ => ⟨S256x1024, .f32⟩
  | .hbm, ⟨14, _⟩ => ⟨S4096x64, .f32⟩
  | .hbm, ⟨15, _⟩ => ⟨S64x16, .f32⟩
  | .hbm, ⟨16, _⟩ => ⟨S1024x64, .f32⟩
  | .hbm, ⟨17, _⟩ => ⟨S1024x16, .f32⟩
  | .hbm, ⟨18, _⟩ => ⟨S64x256, .f32⟩
  | .hbm, ⟨19, _⟩ => ⟨S1024x64, .f32⟩
  | .hbm, ⟨20, _⟩ => ⟨S1024x256, .f32⟩
  | .hbm, ⟨21, _⟩ => ⟨S64x4096, .f32⟩
  | .hbm, ⟨22, _⟩ => ⟨S1x4096, .f32⟩
  | .hbm, ⟨23, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S4096x64, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x16x64_S16x64 : S1x16x64.ShapeCasts S16x64
  shapeCasts_S64x16x64_S64x1024 : S64x16x64.ShapeCasts S64x1024
  shapeCasts_S16x1024_S256x64 : S16x1024.ShapeCasts S256x64
  shapeCasts_S256x1024_S4096x64 : S256x1024.ShapeCasts S4096x64
  shapeCasts_S64x16x1_S64x16 : S64x16x1.ShapeCasts S64x16
  shapeCasts_S64x16x64_S1024x64 : S64x16x64.ShapeCasts S1024x64
  shapeCasts_S1024x16_S64x256 : S1024x16.ShapeCasts S64x256
  shapeCasts_S1024x256_S64x4096 : S1024x256.ShapeCasts S64x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  dot_S16x64_S64x1024_S16x1024_1_0_0_1_n_n_wf : DotDims.WF S16x64 S64x1024 S16x1024 [1] [0] [0] [1] [] []
  dot_S256x64_S64x1024_S256x1024_1_0_0_1_n_n_wf : DotDims.WF S256x64 S64x1024 S256x1024 [1] [0] [0] [1] [] []
  dot_S1024x64_S64x16_S1024x16_1_0_0_1_n_n_wf : DotDims.WF S1024x64 S64x16 S1024x16 [1] [0] [0] [1] [] []
  dot_S1024x64_S64x256_S1024x256_1_0_0_1_n_n_wf : DotDims.WF S1024x64 S64x256 S1024x256 [1] [0] [0] [1] [] []
  dot_S512x4096_S64x4096_S512x64_1_1_0_0_n_n_wf : DotDims.WF S512x4096 S64x4096 S512x64 [1] [1] [0] [0] [] []
  dot_S512x64_S4096x64_S512x4096_1_1_0_0_n_n_wf : DotDims.WF S512x64 S4096x64 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S16x64_S64x1024_S16x1024_1_0_0_1_n_n : DotDims S16x64 S64x1024 S16x1024 where
  lhsContracting := [1]
  rhsContracting := [0]
  lhsNonContracting := [0]
  rhsNonContracting := [1]
  lhsBatch := []
  rhsBatch := []
  wf := dot_S16x64_S64x1024_S16x1024_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf
def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S1x16x64 : Shape := ⟨3, ![1, 16, 64]⟩
abbrev S64x16x64 : Shape := ⟨3, ![64, 16, 64]⟩
abbrev S64x16x1 : Shape := ⟨3, ![64, 16, 1]⟩
abbrev S4096 : Shape := ⟨1, ![4096]⟩
abbrev S16x64 : Shape := ⟨2, ![16, 64]⟩
abbrev S64x1024 : Shape := ⟨2, ![64, 1024]⟩
abbrev S16x1024 : Shape := ⟨2, ![16, 1024]⟩
abbrev S256x64 : Shape := ⟨2, ![256, 64]⟩
abbrev S256x1024 : Shape := ⟨2, ![256, 1024]⟩
abbrev S4096x64 : Shape := ⟨2, ![4096, 64]⟩
abbrev S4096x1024 : Shape := ⟨2, ![4096, 1024]⟩
abbrev S65536x64 : Shape := ⟨2, ![65536, 64]⟩
abbrev S65536x1024 : Shape := ⟨2, ![65536, 1024]⟩
abbrev S1048576x64 : Shape := ⟨2, ![1048576, 64]⟩
abbrev S64x16 : Shape := ⟨2, ![64, 16]⟩
abbrev S1048576x16 : Shape := ⟨2, ![1048576, 16]⟩
abbrev S4096x4096 : Shape := ⟨2, ![4096, 4096]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x16x64, .f32⟩
  | .hbm, ⟨2, _⟩ => ⟨S64x16x64, .f32⟩
  | .hbm, ⟨3, _⟩ => ⟨S64x16x64, .f32⟩
  | .hbm, ⟨4, _⟩ => ⟨S64x16x64, .f32⟩
  | .hbm, ⟨5, _⟩ => ⟨S64x16x64, .f32⟩
  | .hbm, ⟨6, _⟩ => ⟨S64x16x1, .f32⟩
  | .hbm, ⟨7, _⟩ => ⟨S4096, .f32⟩
  | .hbm, ⟨8, _⟩ => ⟨S16x64, .f32⟩
  | .hbm, ⟨9, _⟩ => ⟨S64x1024, .f32⟩
  | .hbm, ⟨10, _⟩ => ⟨S16x1024, .f32⟩
  | .hbm, ⟨11, _⟩ => ⟨S256x64, .f32⟩
  | .hbm, ⟨12, _⟩ => ⟨S64x1024, .f32⟩
  | .hbm, ⟨13, _⟩ => ⟨S256x1024, .f32⟩
  | .hbm, ⟨14, _⟩ => ⟨S4096x64, .f32⟩
  | .hbm, ⟨15, _⟩ => ⟨S64x1024, .f32⟩
  | .hbm, ⟨16, _⟩ => ⟨S4096x1024, .f32⟩
  | .hbm, ⟨17, _⟩ => ⟨S65536x64, .f32⟩
  | .hbm, ⟨18, _⟩ => ⟨S64x1024, .f32⟩
  | .hbm, ⟨19, _⟩ => ⟨S65536x1024, .f32⟩
  | .hbm, ⟨20, _⟩ => ⟨S1048576x64, .f32⟩
  | .hbm, ⟨21, _⟩ => ⟨S64x16, .f32⟩
  | .hbm, ⟨22, _⟩ => ⟨S1048576x16, .f32⟩
  | .hbm, ⟨23, _⟩ => ⟨S4096x4096, .f32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S1x16x64_S16x64 : S1x16x64.ShapeCasts S16x64
  shapeCasts_S64x16x64_S64x1024 : S64x16x64.ShapeCasts S64x1024
  shapeCasts_S16x1024_S256x64 : S16x1024.ShapeCasts S256x64
  shapeCasts_S256x1024_S4096x64 : S256x1024.ShapeCasts S4096x64
  shapeCasts_S4096x1024_S65536x64 : S4096x1024.ShapeCasts S65536x64
  shapeCasts_S65536x1024_S1048576x64 : S65536x1024.ShapeCasts S1048576x64
  shapeCasts_S64x16x1_S64x16 : S64x16x1.ShapeCasts S64x16
  shapeCasts_S1048576x16_S4096x4096 : S1048576x16.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S16x64_S64x1024_S16x1024_1_0_0_1_n_n_wf : DotDims.WF S16x64 S64x1024 S16x1024 [1] [0] [0] [1] [] []
  dot_S256x64_S64x1024_S256x1024_1_0_0_1_n_n_wf : DotDims.WF S256x64 S64x1024 S256x1024 [1] [0] [0] [1] [] []
  dot_S4096x64_S64x1024_S4096x1024_1_0_0_1_n_n_wf : DotDims.WF S4096x64 S64x1024 S4096x1024 [1] [0] [0] [1] [] []
  dot_S65536x64_S64x1024_S65536x1024_1_0_0_1_n_n_wf : DotDims.WF S65536x64 S64x1024 S65536x1024 [1] [0] [0] [1] [] []
  dot_S1048576x64_S64x16_S1048576x16_1_0_0_1_n_n_wf : DotDims.WF S1048576x64 S64x16 S1048576x16 [1] [0] [0] [1] [] []
  dot_S8192x4096_S4096x4096_S8192x4096_1_0_0_1_n_n_wf : DotDims.WF S8192x4096 S4096x4096 S8192x4096 [1] [0] [0] [1] [] []

variable [Facts₀]

def dot_S16x64_S64x1024_S16x1024_1_0_0_1_n_n : DotDims S16x64 S64x1024 S16x1024 where
  lhsContracting := [1]
  rhsContracting := [0]
  lhsNonContracting := [0]
  rhsNonContracting := [1]
  lhsBatch := []
  rhsBatch := []
  wf := dot_S16x64_S64x1024_S16x1024_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibRealSums.lean ====
/-
  Finite sums of products of extended reals that are all real numbers.

  On the extended reals multiplication does not distribute over addition at the infinities, so a product of two
  matrices cannot be re-associated in general. Where every entry is a real number the sums and products are the
  reals' own (the coercion is a ring homomorphism on them), and the usual laws hold: a sum of products may be
  exchanged with another sum, and a chain of matrix products may be bracketed from either end.
-/
import Idealize.ShloMosaic.PureOps.Ideal

noncomputable section

open scoped BigOperators

namespace Cert.LibRealSums

/-- An extended real that is a real number. -/
def IsReal (z : EReal) : Prop := ∃ r : ℝ, z = (r : EReal)

theorem isReal_coe (r : ℝ) : IsReal (r : EReal) := ⟨r, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- The coercion of the reals commutes with a finite sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem isReal_sum {ι : Type*} [Fintype ι] (f : ι → EReal) (hf : ∀ i, IsReal (f i)) : IsReal (∑ i, f i) := by
  choose g hg using hf
  exact ⟨∑ i, g i, by rw [← coe_sum]; exact Finset.sum_congr rfl fun i _ => hg i⟩

/-- A sum over `k` against a product of matrices `L · R` is the sum over the inner index `a` of the sums against `R`'s
    rows, each times `L`'s entry: `∑ₖ xₖ (∑ₐ Lₐ Rₐₖ) = ∑ₐ (∑ₖ xₖ Rₐₖ) Lₐ`, for real entries. -/
theorem sum_mul_sum_exchange {A K : Type*} [Fintype A] [Fintype K] (x : K → EReal) (R : A → K → EReal) (L : A → EReal)
    (hx : ∀ k, IsReal (x k)) (hR : ∀ a k, IsReal (R a k)) (hL : ∀ a, IsReal (L a)) :
    ∑ k, x k * (∑ a, L a * R a k) = ∑ a, (∑ k, x k * R a k) * L a := by
  choose xr hxr using hx
  choose Rr hRr using hR
  choose Lr hLr using hL
  simp only [hxr, hRr, hLr, ← EReal.coe_mul, coe_sum]
  congr 1
  simp only [Finset.mul_sum, Finset.sum_mul]
  rw [Finset.sum_comm]
  exact Finset.sum_congr rfl fun a _ => Finset.sum_congr rfl fun k _ => by ring

/-- Three nested finite sums may be taken in the opposite order. -/
theorem sum_rotate3 {A B C : Type*} [Fintype A] [Fintype B] [Fintype C] (f : A → B → C → ℝ) :
    ∑ c, ∑ b, ∑ a, f a b c = ∑ a, ∑ b, ∑ c, f a b c := by
  calc ∑ c, ∑ b, ∑ a, f a b c = ∑ c, ∑ a, ∑ b, f a b c := Finset.sum_congr rfl fun c _ => Finset.sum_comm
    _ = ∑ a, ∑ c, ∑ b, f a b c := Finset.sum_comm
    _ = ∑ a, ∑ b, ∑ c, f a b c := Finset.sum_congr rfl fun a _ => Finset.sum_comm

/-- A chain of four factors contracted from the left equals the same chain contracted from the right:
    `∑₅ (∑₄ (∑₃ L₃ C₃₄) D₄₅) E₅ = ∑₃ L₃ (∑₄ C₃₄ (∑₅ D₄₅ E₅))`, for real entries. -/
theorem chain_reassoc {A3 A4 A5 : Type*} [Fintype A3] [Fintype A4] [Fintype A5] (L : A3 → EReal) (C : A3 → A4 → EReal)
    (D : A4 → A5 → EReal) (E : A5 → EReal)
    (hL : ∀ a, IsReal (L a)) (hC : ∀ a b, IsReal (C a b)) (hD : ∀ a b, IsReal (D a b)) (hE : ∀ a, IsReal (E a)) :
    ∑ a5, (∑ a4, (∑ a3, L a3 * C a3 a4) * D a4 a5) * E a5 = ∑ a3, L a3 * (∑ a4, C a3 a4 * (∑ a5, D a4 a5 * E a5)) := by
  choose Lr hLr using hL
  choose Cr hCr using hC
  choose Dr hDr using hD
  choose Er hEr using hE
  simp only [hLr, hCr, hDr, hEr, ← EReal.coe_mul, coe_sum]
  congr 1
  simp only [Finset.mul_sum, Finset.sum_mul]
  rw [sum_rotate3 (fun a3 a4 a5 => Lr a3 * Cr a3 a4 * Dr a4 a5 * Er a5)]
  exact Finset.sum_congr rfl fun a3 _ => Finset.sum_congr rfl fun a4 _ => Finset.sum_congr rfl fun a5 _ => by ring

end Cert.LibRealSums

end
-- ==== Proof.Spec.lean ====
/-
  The linear layer with a tensor-train weight, as a function of its arguments, in two bracketings.

  The weight `W` of shape [4096, 4096] is a chain of six cores. The first three cores give a left factor
  `L : [4096, 64]` (rows: the output feature; columns: the bond index in the middle of the chain). A column index
  `k < 4096` of `W` is three digits in base 16, `k = 256·i₃ + 16·i₄ + i₅`, one per remaining core, and

    W (o, k) = ∑ a₅, (∑ a₄, (∑ a₃, L (o, a₃) · c₃ (a₃, i₃, a₄)) · c₄ (a₄, i₄, a₅)) · c₅ (a₅, i₅, 0)

  (contracted from the left), while the right factor, contracted from the right, is

    R (a₃, k) = ∑ a₄, c₃ (a₃, i₃, a₄) · (∑ a₅, c₄ (a₄, i₄, a₅) · c₅ (a₅, i₅, 0)),

  with `W (o, k) = ∑ a₃, L (o, a₃) · R (a₃, k)` when the entries are real numbers. The layer's result is
  `∑ₖ x (n, k) · W (o, k) + b o`; through the two thin factors it is `∑ₐ (∑ₖ x (n, k) · R (a, k)) · L (o, a) + b o`.
  For real entries the two are equal: distributivity and the exchange of two finite sums.
-/
import Idealize.ShloMosaic.PureOps.Ideal
import Idealize.ShloMosaic.Lib.ValueIdx
import proofs.«161706_j91053306675883_1_alg».proof.Proof.LibRealSums

noncomputable section

open scoped BigOperators

namespace Cert.TTSpec

open Idealize.ShloMosaic Idealize.ShloMosaic.ValueIdx Cert.LibRealSums

abbrev Sx : Shape := ⟨2, ![8192, 4096]⟩
abbrev Sl : Shape := ⟨2, ![4096, 64]⟩
abbrev Sc : Shape := ⟨3, ![64, 16, 64]⟩
abbrev Sc5 : Shape := ⟨3, ![64, 16, 1]⟩
abbrev Sb : Shape := ⟨1, ![4096]⟩

/-- The leading base-16 digit of a column index below 4096. -/
def dHi (k : Fin 4096) : Fin 16 := ⟨k.val / 256, by have := k.isLt; omega⟩
/-- Its middle digit. -/
def dMid (k : Fin 4096) : Fin 16 := ⟨k.val / 16 % 16, Nat.mod_lt _ (by decide)⟩
/-- Its last digit. -/
def dLo (k : Fin 4096) : Fin 16 := ⟨k.val % 16, Nat.mod_lt _ (by decide)⟩

/-- The right factor `R (a, k)`: the last three cores contracted from the right. -/
def rightFactor (c3 c4 : Sc.Idx → EReal) (c5 : Sc5.Idx → EReal) (a : Fin 64) (k : Fin 4096) : EReal :=
  ∑ a4 : Fin 64, c3 (ix3 a (dHi k) a4) * ∑ a5 : Fin 64, c4 (ix3 a4 (dMid k) a5) * c5 (ix3 a5 (dLo k) (0 : Fin 1))

/-- The weight `W (o, k)`: the left factor and the last three cores contracted from the left. -/
def weight (L : Sl.Idx → EReal) (c3 c4 : Sc.Idx → EReal) (c5 : Sc5.Idx → EReal) (o k : Fin 4096) : EReal :=
  ∑ a5 : Fin 64, (∑ a4 : Fin 64, (∑ a3 : Fin 64, L (ix2 o a3) * c3 (ix3 a3 (dHi k) a4)) * c4 (ix3 a4 (dMid k) a5))
    * c5 (ix3 a5 (dLo k) (0 : Fin 1))

/-- Entry `(n, o)` of the result through the two thin factors. -/
def entryViaFactors (x : Sx.Idx → EReal) (L : Sl.Idx → EReal) (c3 c4 : Sc.Idx → EReal) (c5 : Sc5.Idx → EReal) (b : Sb.Idx → EReal)
    (n : Fin 8192) (o : Fin 4096) : EReal :=
  (∑ a : Fin 64, (∑ k : Fin 4096, x (ix2 n k) * rightFactor c3 c4 c5 a k) * L (ix2 o a)) + b (ix1 o)

/-- Entry `(n, o)` of the result through the whole weight. -/
def entryViaWeight (x : Sx.Idx → EReal) (L : Sl.Idx → EReal) (c3 c4 : Sc.Idx → EReal) (c5 : Sc5.Idx → EReal) (b : Sb.Idx → EReal)
    (n : Fin 8192) (o : Fin 4096) : EReal :=
  (∑ k : Fin 4096, x (ix2 n k) * weight L c3 c4 c5 o k) + b (ix1 o)

/-- The result array through the two thin factors. -/
def viaFactors (x : Sx.Idx → EReal) (L : Sl.Idx → EReal) (c3 c4 : Sc.Idx → EReal) (c5 : Sc5.Idx → EReal) (b : Sb.Idx → EReal) :
    Sx.Idx → EReal := fun i => entryViaFactors x L c3 c4 c5 b (i 0) (i 1)

/-- The result array through the whole weight. -/
def viaWeight (x : Sx.Idx → EReal) (L : Sl.Idx → EReal) (c3 c4 : Sc.Idx → EReal) (c5 : Sc5.Idx → EReal) (b : Sb.Idx → EReal) :
    Sx.Idx → EReal := fun i => entryViaWeight x L c3 c4 c5 b (i 0) (i 1)

section Law
variable {x : Sx.Idx → EReal} {L : Sl.Idx → EReal} {c3 c4 : Sc.Idx → EReal} {c5 : Sc5.Idx → EReal} (b : Sb.Idx → EReal)

theorem isReal_rightFactor (h3 : ∀ i, IsReal (c3 i)) (h4 : ∀ i, IsReal (c4 i)) (h5 : ∀ i, IsReal (c5 i)) (a : Fin 64) (k : Fin 4096) :
    IsReal (rightFactor c3 c4 c5 a k) :=
  isReal_sum _ fun a4 => (h3 _).mul (isReal_sum _ fun a5 => (h4 _).mul (h5 _))

/-- The weight is the product of the two factors. -/
theorem weight_eq (hL : ∀ i, IsReal (L i)) (h3 : ∀ i, IsReal (c3 i)) (h4 : ∀ i, IsReal (c4 i)) (h5 : ∀ i, IsReal (c5 i))
    (o k : Fin 4096) : weight L c3 c4 c5 o k = ∑ a3 : Fin 64, L (ix2 o a3) * rightFactor c3 c4 c5 a3 k :=
  chain_reassoc (fun a3 : Fin 64 => L (ix2 o a3)) (fun (a3 a4 : Fin 64) => c3 (ix3 a3 (dHi k) a4))
    (fun (a4 a5 : Fin 64) => c4 (ix3 a4 (dMid k) a5)) (fun a5 : Fin 64 => c5 (ix3 a5 (dLo k) (0 : Fin 1)))
    (fun _ => hL _) (fun _ _ => h3 _) (fun _ _ => h4 _) (fun _ => h5 _)

/-- For real entries the two bracketings agree, entry by entry … -/
theorem entryViaWeight_eq_entryViaFactors (hx : ∀ i, IsReal (x i)) (hL : ∀ i, IsReal (L i)) (h3 : ∀ i, IsReal (c3 i))
    (h4 : ∀ i, IsReal (c4 i)) (h5 : ∀ i, IsReal (c5 i)) (n : Fin 8192) (o : Fin 4096) :
    entryViaWeight x L c3 c4 c5 b n o = entryViaFactors x L c3 c4 c5 b n o := by
  unfold entryViaWeight entryViaFactors
  congr 1
  simp only [weight_eq hL h3 h4 h5]
  exact sum_mul_sum_exchange (fun k : Fin 4096 => x (ix2 n k)) (fun (a : Fin 64) (k : Fin 4096) => rightFactor c3 c4 c5 a k)
    (fun a : Fin 64 => L (ix2 o a)) (fun _ => hx _) (fun a k => isReal_rightFactor h3 h4 h5 a k) (fun _ => hL _)

/-- … and so as arrays. -/
theorem viaWeight_eq_viaFactors (hx : ∀ i, IsReal (x i)) (hL : ∀ i, IsReal (L i)) (h3 : ∀ i, IsReal (c3 i))
    (h4 : ∀ i, IsReal (c4 i)) (h5 : ∀ i, IsReal (c5 i)) :
    viaWeight x L c3 c4 c5 b = viaFactors x L c3 c4 c5 b :=
  funext fun i => entryViaWeight_eq_entryViaFactors b hx hL h3 h4 h5 (i 0) (i 1)

end Law

end Cert.TTSpec

end
-- ==== Proof.LibCoordReads.lean ====
/-
  Reshapes and matrix products read at an index given by its coordinates.

  A reshape keeps the row-major position: entry `(c, d)` of the reshaped array is the entry of the operand at the
  index with the same position `c · D + d`. Stated for the rank-2 → rank-2, rank-3 → rank-2 and rank-1 → rank-2
  reshapes, with the operand's index given by its coordinates and the equality of the two positions as a hypothesis
  in the naturals.

  A product `A · Bᵀ` (the right operand contracted on its last axis) accumulated into a zero matrix is, at `(a, b)`,
  the sum over the contracted coordinate of `A (a, c) · B (b, c)`, on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibCoordReads

open Idealize.ShloMosaic Idealize.ShloMosaic.ValueIdx

/-- A rank-2 array reshaped to rank 2, at `(c, d)`: the operand at `(a, b)` with `a · B + b = c · D + d`. -/
theorem shapeCast_22 {α : Type} {A B C D : Nat} (x : (⟨2, ![A, B]⟩ : Shape).Idx → α)
    (h : (⟨2, ![A, B]⟩ : Shape).ShapeCasts ⟨2, ![C, D]⟩) (c : Fin C) (d : Fin D) (a : Fin A) (b : Fin B)
    (e : a.val * B + b.val = c.val * D + d.val) :
    shapeCast ⟨2, ![C, D]⟩ x h (ix2 c d) = x (ix2 a b) :=
  shapeCast_apply x h (ix2 c d) (ix2 a b) (by rw [Shape.rowMajor_val_two, Shape.rowMajor_val_two]; exact e)

/-- A rank-3 array reshaped to rank 2, at `(d, e)`: the operand at `(a, b, c)` with `(a · B + b) · C + c = d · E + e`. -/
theorem shapeCast_32 {α : Type} {A B C D E : Nat} (x : (⟨3, ![A, B, C]⟩ : Shape).Idx → α)
    (h : (⟨3, ![A, B, C]⟩ : Shape).ShapeCasts ⟨2, ![D, E]⟩) (d : Fin D) (e : Fin E) (a : Fin A) (b : Fin B) (c : Fin C)
    (eq : (a.val * B + b.val) * C + c.val = d.val * E + e.val) :
    shapeCast ⟨2, ![D, E]⟩ x h (ix2 d e) = x (ix3 a b c) :=
  shapeCast_apply x h (ix2 d e) (ix3 a b c) (by rw [Shape.rowMajor_val_three, Shape.rowMajor_val_two]; exact eq)

/-- A vector reshaped to one row, at `(p, q)`: the vector at `q`. -/
theorem shapeCast_12 {α : Type} {N : Nat} (x : (⟨1, ![N]⟩ : Shape).Idx → α)
    (h : (⟨1, ![N]⟩ : Shape).ShapeCasts ⟨2, ![1, N]⟩) (p : Fin 1) (q : Fin N) :
    shapeCast ⟨2, ![1, N]⟩ x h (ix2 p q) = x (ix1 q) :=
  shapeCast_apply x h (ix2 p q) (ix1 q) (by
    rw [Shape.rowMajor_val_one, Shape.rowMajor_val_two]
    show q.val = p.val * N + q.val
    have : p.val = 0 := by omega
    rw [this]; omega)

/-- `A · Bᵀ` into a zero accumulator, at `(a, b)`, on the extended reals: `∑ c, A (a, c) · B (b, c)`. -/
theorem matmul_transposedRhs_zero_apply {M K N : Nat} {φ₁ φ₂ : FTy} (prec : Option ContractPrecision)
    (A : FVec Ideal ⟨2, ![M, K]⟩ φ₁) (B : FVec Ideal ⟨2, ![N, K]⟩ φ₂) (a : Fin M) (b : Fin N) :
    matmul (DotDims.transposedRhs M K N) prec A B (constant (⟨2, ![M, N]⟩ : Shape) .f32 0x00000000#32) (ix2 a b)
      = ∑ c : Fin K, A (ix2 a c) * B (ix2 b c) := by
  show FloatOps.matmul (DotDims.transposedRhs M K N) prec A B (constant (⟨2, ![M, N]⟩ : Shape) .f32 0x00000000#32) (ix2 a b) = _
  rw [Ideal.matmul_constant_zero_apply, ← Equiv.sum_comp (contrEquiv1 (DotDims.transposedRhs M K N) K rfl rfl).symm]
  refine Finset.sum_congr rfl fun c _ => ?_
  have c2 := contrEquiv1_symm_val (DotDims.transposedRhs M K N) K rfl rfl c
  have l2 : (DotDims.transposedRhs M K N).lhsIdx (ix2 a b) ((contrEquiv1 _ K rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs M K N).rhsIdx (ix2 a b) ((contrEquiv1 _ K rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibCoordReads

end
-- ==== Proof.RefValue.lean ====
/-
  The reference, read at an entry: its result array is the layer through the whole weight.

  The reference reshapes the running product `[A, 1024] → [16·A, 64]` between its matrix products: row `o` and column
  `64·i + a` become row `16·o + i` and column `a`, so each product appends one base-16 digit to the row index and
  contracts the bond index. After the last product the rows are `256·o + 16·i₃ + i₄` and the columns `i₅`; reshaped to
  [4096, 4096] that is row `o` and column `k = 256·i₃ + 16·i₄ + i₅`. The result is `x · Wᵀ + b`.
-/
import proofs.«161706_j91053306675883_1_alg».proof.Proof.Gen.ReferenceIdeal.Read
import proofs.«161706_j91053306675883_1_alg».proof.Proof.Spec
import proofs.«161706_j91053306675883_1_alg».proof.Proof.LibCoordReads
import Idealize.ShloMosaic.Lib.StackMember

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.StackMember (dotGeneral_plain_apply)
open Cert.LibCoordReads Cert.TTSpec

/-- The product with the fourth core, at row `o` and column `64·i₃ + a₄`. -/
theorem prod3_apply (L : FVec Ideal S4096x64 .f32) (x4 : FVec Ideal S64x16x64 .f32) (o : Fin 4096) (i3 : Fin 16) (a4 : Fin 64) :
    Host.dotGeneral dot_S4096x64_S64x1024_S4096x1024_1_0_0_1_n_n none L (shapeCast S64x1024 x4 shapeCasts_S64x16x64_S64x1024)
        (ix2 o (⟨i3.val * 64 + a4.val, by have := i3.isLt; have := a4.isLt; omega⟩ : Fin 1024))
      = ∑ a3 : Fin 64, L (ix2 o a3) * x4 (ix3 a3 i3 a4) := by
  refine (dotGeneral_plain_apply (m := 4096) (k := 64) (n := 1024) none L _ o _).trans ?_
  refine Finset.sum_congr rfl fun a3 _ => ?_
  congr 1
  exact shapeCast_32 x4 _ a3 _ a3 i3 a4 (by show _ = a3.val * 1024 + (i3.val * 64 + a4.val); omega)

/-- The product with the fifth core, at row `16·o + i₃` and column `64·i₄ + a₅`. -/
theorem prod4_apply (Y : FVec Ideal S4096x1024 .f32) (x5 : FVec Ideal S64x16x64 .f32) (o : Fin 4096) (i3 i4 : Fin 16) (a5 : Fin 64) :
    Host.dotGeneral dot_S65536x64_S64x1024_S65536x1024_1_0_0_1_n_n none (shapeCast S65536x64 Y shapeCasts_S4096x1024_S65536x64)
        (shapeCast S64x1024 x5 shapeCasts_S64x16x64_S64x1024)
        (ix2 (⟨o.val * 16 + i3.val, by have := o.isLt; have := i3.isLt; omega⟩ : Fin 65536)
          (⟨i4.val * 64 + a5.val, by have := i4.isLt; have := a5.isLt; omega⟩ : Fin 1024))
      = ∑ a4 : Fin 64, Y (ix2 o (⟨i3.val * 64 + a4.val, by have := i3.isLt; have := a4.isLt; omega⟩ : Fin 1024)) * x5 (ix3 a4 i4 a5) := by
  refine (dotGeneral_plain_apply (m := 65536) (k := 64) (n := 1024) none _ _ _ _).trans ?_
  refine Finset.sum_congr rfl fun a4 _ => ?_
  congr 1
  · exact shapeCast_22 Y _ _ a4 o _ (by show o.val * 1024 + (i3.val * 64 + a4.val) = (o.val * 16 + i3.val) * 64 + a4.val; omega)
  · exact shapeCast_32 x5 _ a4 _ a4 i4 a5 (by show _ = a4.val * 1024 + (i4.val * 64 + a5.val); omega)

/-- The product with the last core, at row `16·q + i₄` and column `i₅`. -/
theorem prod5_apply (Z : FVec Ideal S65536x1024 .f32) (x6 : FVec Ideal S64x16x1 .f32) (q : Fin 65536) (i4 i5 : Fin 16) :
    Host.dotGeneral dot_S1048576x64_S64x16_S1048576x16_1_0_0_1_n_n none (shapeCast S1048576x64 Z shapeCasts_S65536x1024_S1048576x64)
        (shapeCast S64x16 x6 shapeCasts_S64x16x1_S64x16)
        (ix2 (⟨q.val * 16 + i4.val, by have := q.isLt; have := i4.isLt; omega⟩ : Fin 1048576) i5)
      = ∑ a5 : Fin 64, Z (ix2 q (⟨i4.val * 64 + a5.val, by have := i4.isLt; have := a5.isLt; omega⟩ : Fin 1024)) * x6 (ix3 a5 i5 (0 : Fin 1)) := by
  refine (dotGeneral_plain_apply (m := 1048576) (k := 64) (n := 16) none _ _ _ _).trans ?_
  refine Finset.sum_congr rfl fun a5 _ => ?_
  congr 1
  · exact shapeCast_22 Z _ _ a5 q _ (by show q.val * 1024 + (i4.val * 64 + a5.val) = (q.val * 16 + i4.val) * 64 + a5.val; omega)
  · exact shapeCast_32 x6 _ a5 i5 a5 i5 (0 : Fin 1) (by show (a5.val * 16 + i5.val) * 1 + 0 = a5.val * 16 + i5.val; omega)

/-- The weight's transpose at `(k, o)`: the last product at row `16·(16·o + i₃) + i₄` and column `i₅`, the digits of `k`. -/
theorem weightT_apply (U : FVec Ideal S1048576x16 .f32) (o k : Fin 4096) :
    transpose S4096x4096 [1, 0] (shapeCast S4096x4096 U shapeCasts_S1048576x16_S4096x4096) transposes_S4096x4096_S4096x4096_1_0 (ix2 k o)
      = U (ix2 (⟨(o.val * 16 + (dHi k).val) * 16 + (dMid k).val, by
          have := o.isLt; have := (dHi k).isLt; have := (dMid k).isLt; omega⟩ : Fin 1048576) (dLo k)) := by
  refine (transpose_apply [1, 0] _ transposes_S4096x4096_S4096x4096_1_0 (ix2 k o) (ix2 o k) (fun b => match b with
    | ⟨0, _⟩ => rfl
    | ⟨1, _⟩ => rfl)).trans ?_
  exact shapeCast_22 U _ o k _ _ (by
    show ((o.val * 16 + k.val / 256) * 16 + k.val / 16 % 16) * 16 + k.val % 16 = o.val * 4096 + k.val
    have := k.isLt; omega)

/-- THE WEIGHT: the reference's transposed weight at `(k, o)` is `W (o, k)` over its left factor. -/
theorem weight_ref (x1 : FVec Ideal S1x16x64 .f32) (x2 x3 x4 x5 : FVec Ideal S64x16x64 .f32) (x6 : FVec Ideal S64x16x1 .f32) (o k : Fin 4096) :
    val_main_v16 (F := Ideal) x1 x2 x3 x4 x5 x6 (ix2 k o) = weight (val_main_v6 (F := Ideal) x1 x2 x3) x4 x5 x6 o k := by
  unfold val_main_v16 val_main_v15 val_main_v14 val_main_v13 val_main_v12 val_main_v11 val_main_v10 val_main_v9 val_main_v8 val_main_v7
  refine (weightT_apply _ o k).trans ?_
  refine (prod5_apply _ x6 ⟨o.val * 16 + (dHi k).val, by have := o.isLt; have := (dHi k).isLt; omega⟩ (dMid k) (dLo k)).trans ?_
  unfold weight
  refine Finset.sum_congr rfl fun a5 _ => ?_
  congr 1
  refine (prod4_apply _ x5 o (dHi k) (dMid k) a5).trans ?_
  refine Finset.sum_congr rfl fun a4 _ => ?_
  congr 1
  exact prod3_apply _ x4 o (dHi k) a4

/-- THE REFERENCE'S RESULT is the layer through the whole weight. -/
theorem result_ref (x0 : FVec Ideal S8192x4096 .f32) (x1 : FVec Ideal S1x16x64 .f32) (x2 x3 x4 x5 : FVec Ideal S64x16x64 .f32)
    (x6 : FVec Ideal S64x16x1 .f32) (x7 : FVec Ideal S4096 .f32) :
    val_main_v20 (F := Ideal) x0 x1 x2 x3 x4 x5 x6 x7 = viaWeight x0 (val_main_v6 (F := Ideal) x1 x2 x3) x4 x5 x6 x7 := by
  funext i
  obtain ⟨n, o, rfl⟩ : ∃ (n : Fin 8192) (o : Fin 4096), i = ix2 n o := ⟨i 0, i 1, eq_ix2 i⟩
  show val_main_v17 (F := Ideal) x0 x1 x2 x3 x4 x5 x6 (ix2 n o) + val_main_v19 (F := Ideal) x7 (ix2 n o) = entryViaWeight x0 _ x4 x5 x6 x7 n o
  unfold entryViaWeight
  congr 1
  · unfold val_main_v17
    refine (dotGeneral_plain_apply (m := 8192) (k := 4096) (n := 4096) none x0 _ n o).trans ?_
    exact Finset.sum_congr rfl fun k _ => congrArg (x0 (ix2 n k) * ·) (weight_ref x1 x2 x3 x4 x5 x6 o k)
  · rw [val_main_v19_apply, val_main_v18_apply]
    exact congrArg x7 (funext fun a => match a with | ⟨0, _⟩ => rfl)

end Cert.ReferenceIdeal.RefValue

end
-- ==== Proof.LeftFactor.lean ====
/-
  The left factor of real cores is real.

  Its entries are sums of products of sums of products of the first three cores' entries, read through reshapes.
-/
import proofs.«161706_j91053306675883_1_alg».proof.Proof.Gen.ReferenceIdeal.Read
import proofs.«161706_j91053306675883_1_alg».proof.Proof.LibRealSums

noncomputable section

namespace Cert.ReferenceIdeal.RefValue

open Cert.ReferenceIdeal Cert.ReferenceIdeal.Gen Cert.ReferenceIdeal.Read Idealize.ShloMosaic Cert.LibRealSums

/-- Every entry of the left factor of real cores is a real number. -/
theorem left_real (x1 : FVec Ideal S1x16x64 .f32) (x2 x3 : FVec Ideal S64x16x64 .f32)
    (h1 : ∀ i, IsReal (x1 i)) (h2 : ∀ i, IsReal (x2 i)) (h3 : ∀ i, IsReal (x3 i)) (i : S4096x64.Idx) :
    IsReal (val_main_v6 (F := Ideal) x1 x2 x3 i) := by
  rw [val_main_v6_apply, val_main_v5_apply]
  refine isReal_sum _ fun k => IsReal.mul ?_ ?_
  · rw [val_main_v3_apply, val_main_v2_apply]
    refine isReal_sum _ fun k' => IsReal.mul ?_ ?_
    · rw [val_main_v0_apply]; exact h1 _
    · rw [val_main_v1_apply]; exact h2 _
  · rw [val_main_v4_apply]; exact h3 _

end Cert.ReferenceIdeal.RefValue

end
-- ==== Proof.KernelPayload.lean ====
/-
  The kernel body's one stored value, read at an entry of the output block.

  The body casts its row block `X` [512, 4096] and the resident right factor `R` [64, 4096] to bf16 (the identity on
  extended reals), contracts both on their last axis (`X · Rᵀ`, [512, 64]), casts, contracts with the resident left
  factor `L` [4096, 64] on the last axis again (`· Lᵀ`, [512, 4096]) and adds the bias row. At `(p, q)`:
  `∑ₐ (∑ₖ X (p, k) · R (a, k)) · L (q, a) + bias (0, q)`.
-/
import proofs.«161706_j91053306675883_1_alg».proof.Proof.Gen.KernelIdeal.Skeleton
import proofs.«161706_j91053306675883_1_alg».proof.Proof.LibCoordReads
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx Cert.LibCoordReads

/-- The stored value at `(p, q)` of the block. -/
theorem payload_apply (X : Vec Ideal S512x4096 .f32) (R : Vec Ideal S64x4096 .f32) (L : Vec Ideal S4096x64 .f32)
    (B : Vec Ideal S1x4096 .f32) (p : Fin 512) (q : Fin 4096) :
    k0_pay1 (F := Ideal) X R L B (ix2 p q)
      = (∑ a : Fin 64, (∑ k : Fin 4096, X (ix2 p k) * R (ix2 a k)) * L (ix2 q a)) + B (ix2 (0 : Fin 1) q) := by
  unfold k0_pay1
  show (matmul (F := Ideal) dot_S512x64_S4096x64_S512x4096_1_1_0_0_n_n none _ _ (constant (F := Ideal) S512x4096 .f32 0x00000000#32) (ix2 p q) : EReal)
      + (broadcastTo S512x4096 (shapeCast S1x4096 B shapeCasts_S1x4096_S1x4096) broadcasts_S1x4096_S512x4096 (ix2 p q) : EReal) = _
  congr 1
  · refine (matmul_transposedRhs_zero_apply (M := 512) (K := 64) (N := 4096) none _ _ p q).trans ?_
    refine Finset.sum_congr rfl fun a _ => ?_
    congr 1
    · show (matmul (F := Ideal) dot_S512x4096_S64x4096_S512x64_1_1_0_0_n_n none _ _ (constant (F := Ideal) S512x64 .f32 0x00000000#32) (ix2 p a) : EReal) = _
      refine (matmul_transposedRhs_zero_apply (M := 512) (K := 4096) (N := 64) none _ _ p a).trans ?_
      refine Finset.sum_congr rfl fun k _ => ?_
      congr 1
      show (shapeCast S64x4096 R shapeCasts_S64x4096_S64x4096 (ix2 a k) : EReal) = _
      rw [shapeCast_self]
    · show (shapeCast S4096x64 L shapeCasts_S4096x64_S4096x64 (ix2 q a) : EReal) = _
      rw [shapeCast_self]
  · rw [shapeCast_self]
    exact broadcastTo_apply B broadcasts_S1x4096_S512x4096 (ix2 p q) (ix2 (0 : Fin 1) q) (fun a => match a with
      | ⟨0, _⟩ => rfl
      | ⟨1, _⟩ => rfl)

end Cert.KernelIdeal.Hand

end
-- ==== Proof.KernelFactors.lean ====
/-
  The two thin factors and the bias row as the pallas_call finds them.

  Before the call the program contracts the first three cores into the left factor `L` [4096, 64] — by the very
  operations the reference begins with — and the last three, from the right, into `R` [64, 4096]: the last two cores
  give a [1024, 16] product (row `16·a₄ + i₄`, column `i₅`), reshaped to [64, 256] (row `a₄`, column `16·i₄ + i₅`); the
  product with the fourth core is [1024, 256] (row `16·a₃ + i₃`), reshaped to [64, 4096]: row `a₃`, column
  `k = 256·i₃ + 16·i₄ + i₅`. The bias is reshaped to one row.
-/
import proofs.«161706_j91053306675883_1_alg».proof.Proof.Gen.KernelIdeal.Frame
import proofs.«161706_j91053306675883_1_alg».proof.Proof.Gen.ReferenceIdeal.Read
import proofs.«161706_j91053306675883_1_alg».proof.Proof.Spec
import proofs.«161706_j91053306675883_1_alg».proof.Proof.LibCoordReads
import Idealize.ShloMosaic.Lib.StackMember
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem Idealize.ShloMosaic.ValueIdx
open Idealize.ShloMosaic.StableHlo
open Idealize.ShloMosaic.StackMember (dotGeneral_plain_apply)
open Cert.LibCoordReads Cert.TTSpec

variable {F : FTy → Type} [FloatOps F]

/-- The right factor as the host operations compute it from the last three cores. -/
def rightTerm (x4 x5 : FVec F S64x16x64 .f32) (x6 : FVec F S64x16x1 .f32) : FVec F S64x4096 .f32 :=
  shapeCast S64x4096 (Host.dotGeneral dot_S1024x64_S64x256_S1024x256_1_0_0_1_n_n none
    (shapeCast S1024x64 x4 shapeCasts_S64x16x64_S1024x64)
    (shapeCast S64x256 (Host.dotGeneral dot_S1024x64_S64x16_S1024x16_1_0_0_1_n_n none
      (shapeCast S1024x64 x5 shapeCasts_S64x16x64_S1024x64) (shapeCast S64x16 x6 shapeCasts_S64x16x1_S64x16))
      shapeCasts_S1024x16_S64x256)) shapeCasts_S1024x256_S64x4096

section Entry
variable (m : (ℓ : Loc nD τ sig) → Buf (Elt F) ℓ)

/-- At the call the second operand holds the right factor of the arguments … -/
theorem V_right (c : Dev nD) : (V m c main_v13 : S64x4096.Idx → Elt F .f32)
    = rightTerm (F := F) (m ((c : Thread nD τ).loc main_arg4)) (m ((c : Thread nD τ).loc main_arg5)) (m ((c : Thread nD τ).loc main_arg6)) := by
  dsimp only [V, hostOps0]; after_results; rfl

/-- … the third the left factor, the same term the reference computes … -/
theorem V_left (c : Dev nD) : (V m c main_v6 : S4096x64.Idx → Elt F .f32)
    = Cert.ReferenceIdeal.Read.val_main_v6 (F := F) (m ((c : Thread nD τ).loc main_arg1)) (m ((c : Thread nD τ).loc main_arg2)) (m ((c : Thread nD τ).loc main_arg3)) := by
  dsimp only [V, hostOps0]; after_results; rfl

/-- … and the fourth the bias as one row. -/
theorem V_bias (c : Dev nD) : (V m c main_v14 : S1x4096.Idx → Elt F .f32)
    = shapeCast S1x4096 (m ((c : Thread nD τ).loc main_arg7)) shapeCasts_S4096_S1x4096 := by
  dsimp only [V, hostOps0]; after_results; rfl

end Entry

/-- The product of the last two cores, at row `16·a₄ + i₄` and column `i₅`. -/
theorem tail2_apply (x5 : FVec Ideal S64x16x64 .f32) (x6 : FVec Ideal S64x16x1 .f32) (a4 : Fin 64) (i4 i5 : Fin 16) :
    Host.dotGeneral dot_S1024x64_S64x16_S1024x16_1_0_0_1_n_n none (shapeCast S1024x64 x5 shapeCasts_S64x16x64_S1024x64)
        (shapeCast S64x16 x6 shapeCasts_S64x16x1_S64x16)
        (ix2 (⟨a4.val * 16 + i4.val, by have := a4.isLt; have := i4.isLt; omega⟩ : Fin 1024) i5)
      = ∑ a5 : Fin 64, x5 (ix3 a4 i4 a5) * x6 (ix3 a5 i5 (0 : Fin 1)) := by
  refine (dotGeneral_plain_apply (m := 1024) (k := 64) (n := 16) none _ _ _ _).trans ?_
  refine Finset.sum_congr rfl fun a5 _ => ?_
  congr 1
  · exact shapeCast_32 x5 _ _ a5 a4 i4 a5 rfl
  · exact shapeCast_32 x6 _ a5 i5 a5 i5 (0 : Fin 1) (by show (a5.val * 16 + i5.val) * 1 + 0 = a5.val * 16 + i5.val; omega)

/-- The product of the fourth core with that, at row `16·a₃ + i₃` and column `16·i₄ + i₅`. -/
theorem tail3_apply (x4 : FVec Ideal S64x16x64 .f32) (Y : FVec Ideal S1024x16 .f32) (a3 : Fin 64) (i3 i4 i5 : Fin 16) :
    Host.dotGeneral dot_S1024x64_S64x256_S1024x256_1_0_0_1_n_n none (shapeCast S1024x64 x4 shapeCasts_S64x16x64_S1024x64)
        (shapeCast S64x256 Y shapeCasts_S1024x16_S64x256)
        (ix2 (⟨a3.val * 16 + i3.val, by have := a3.isLt; have := i3.isLt; omega⟩ : Fin 1024)
          (⟨i4.val * 16 + i5.val, by have := i4.isLt; have := i5.isLt; omega⟩ : Fin 256))
      = ∑ a4 : Fin 64, x4 (ix3 a3 i3 a4)
          * Y (ix2 (⟨a4.val * 16 + i4.val, by have := a4.isLt; have := i4.isLt; omega⟩ : Fin 1024) i5) := by
  refine (dotGeneral_plain_apply (m := 1024) (k := 64) (n := 256) none _ _ _ _).trans ?_
  refine Finset.sum_congr rfl fun a4 _ => ?_
  congr 1
  · exact shapeCast_32 x4 _ _ a4 a3 i3 a4 rfl
  · exact shapeCast_22 Y _ a4 _ _ i5 (by show (a4.val * 16 + i4.val) * 16 + i5.val = a4.val * 256 + (i4.val * 16 + i5.val); omega)

/-- THE RIGHT FACTOR: the host operations' term at `(a, k)` is `R (a, k)`. -/
theorem rightTerm_apply (x4 x5 : FVec Ideal S64x16x64 .f32) (x6 : FVec Ideal S64x16x1 .f32) (a : Fin 64) (k : Fin 4096) :
    rightTerm (F := Ideal) x4 x5 x6 (ix2 a k) = rightFactor x4 x5 x6 a k := by
  unfold rightTerm
  refine (shapeCast_22 _ _ a k (⟨a.val * 16 + (dHi k).val, by have := a.isLt; have := (dHi k).isLt; omega⟩ : Fin 1024)
    (⟨(dMid k).val * 16 + (dLo k).val, by have := (dMid k).isLt; have := (dLo k).isLt; omega⟩ : Fin 256) (by
      show (a.val * 16 + k.val / 256) * 256 + (k.val / 16 % 16 * 16 + k.val % 16) = a.val * 4096 + k.val
      have := k.isLt; omega)).trans ?_
  refine (tail3_apply x4 _ a (dHi k) (dMid k) (dLo k)).trans ?_
  unfold rightFactor
  refine Finset.sum_congr rfl fun a4 _ => ?_
  congr 1
  exact tail2_apply x5 x6 a4 (dMid k) (dLo k)

end Cert.KernelIdeal.Hand

end
-- ==== Proof.KernelValue.lean ====
/-
  The kernel's result array: the layer through the two thin factors.

  Grid point `t` (of 16) stages rows `512·t … 512·t + 511` of `x`, the whole right factor, the whole left factor and the
  bias row, and writes back rows `512·t …` of the result. Entry `(p, q)` of what it writes is the body's stored value
  there: `∑ₐ (∑ₖ x (512·t + p, k) · R (a, k)) · L (q, a) + b q` — entry `(512·t + p, q)` of the layer through the two
  factors. The sixteen row blocks cover the array (row `r` lies in block `r / 512`), so the array ends holding it.
-/
import proofs.«161706_j91053306675883_1_alg».proof.Proof.Gen.KernelIdeal.Value
import proofs.«161706_j91053306675883_1_alg».proof.Proof.KernelPayload
import proofs.«161706_j91053306675883_1_alg».proof.Proof.KernelFactors
import proofs.«161706_j91053306675883_1_alg».proof.Proof.Spec
import Idealize.ShloMosaic.Lib.Pipeline.Value

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.LibCoordReads Cert.TTSpec

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the row block of `x` and of the result moves with the point; the factors and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 16 := lt_of_lt_of_eq t.isLt N_0

/-- The left factor of the arguments. -/
abbrev leftOf (c : Dev nD) : S4096x64.Idx → EReal :=
  Cert.ReferenceIdeal.Read.val_main_v6 (F := Ideal) (m ((c : Thread nD τ).loc main_arg1)) (m ((c : Thread nD τ).loc main_arg2))
    (m ((c : Thread nD τ).loc main_arg3))

/-- What the result array ends holding: the layer through the two factors, of the arguments. -/
abbrev result (c : Dev nD) : S8192x4096.Idx → EReal :=
  viaFactors (m ((c : Thread nD τ).loc main_arg0) : S8192x4096.Idx → EReal) (leftOf m c)
    (m ((c : Thread nD τ).loc main_arg4) : S64x16x64.Idx → EReal) (m ((c : Thread nD τ).loc main_arg5) : S64x16x64.Idx → EReal)
    (m ((c : Thread nD τ).loc main_arg6) : S64x16x1.Idx → EReal) (m ((c : Thread nD τ).loc main_arg7) : S4096.Idx → EReal)

/-! ## The four input blocks at a point, at their literal types -/

abbrev xblk (c : Dev nD) (t : Fin cfg0.N) : Vec Ideal S512x4096 .f32 := iblk m c 0 t
abbrev rblk (c : Dev nD) (t : Fin cfg0.N) : Vec Ideal S64x4096 .f32 := iblk m c 1 t
abbrev lblk (c : Dev nD) (t : Fin cfg0.N) : Vec Ideal S4096x64 .f32 := iblk m c 2 t
abbrev bblk (c : Dev nD) (t : Fin cfg0.N) : Vec Ideal S1x4096 .f32 := iblk m c 3 t

/-- The block of `x` at point `t` is rows `512·t …` of the argument. -/
theorem xblk_apply (c : Dev nD) (t : Fin cfg0.N) (p : Fin 512) (k : Fin 4096) :
    xblk m c t (ix2 p k) = (m ((c : Thread nD τ).loc main_arg0) : S8192x4096.Idx → EReal)
      (ix2 (⟨t.val * 512 + p.val, by have := point_lt t; have := p.isLt; omega⟩ : Fin 8192) k) := by
  obtain ⟨e0, e1, -⟩ := idx_facts t
  show iblk m c 0 t (ix2 p k) = _
  unfold iblk
  rw [View.read_apply]
  show V m c main_arg0 _ = _
  rw [V_main_arg0]
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 4096 + 1 * k.val = k.val; rw [e1]; omega

/-- The resident block of the second operand is the right factor of the arguments. -/
theorem rblk_apply (c : Dev nD) (t : Fin cfg0.N) (a : Fin 64) (k : Fin 4096) :
    rblk m c t (ix2 a k) = rightFactor (m ((c : Thread nD τ).loc main_arg4) : S64x16x64.Idx → EReal)
      (m ((c : Thread nD τ).loc main_arg5) : S64x16x64.Idx → EReal) (m ((c : Thread nD τ).loc main_arg6) : S64x16x1.Idx → EReal) a k := by
  obtain ⟨-, -, e2, e3, -⟩ := idx_facts t
  show iblk m c 1 t (ix2 a k) = _
  unfold iblk
  rw [View.read_apply]
  have he : ((cfg0.win 1).blk t).view.emb (ix2 a k) = ix2 a k := by
    funext b
    apply Fin.ext
    match b with
    | ⟨0, _⟩ => show win0_1.index t (0 : Fin 2) * 64 + 1 * a.val = a.val; rw [e2]; omega
    | ⟨1, _⟩ => show win0_1.index t (1 : Fin 2) * 4096 + 1 * k.val = k.val; rw [e3]; omega
  rw [he]
  show (V m c main_v13 : S64x4096.Idx → EReal) (ix2 a k) = _
  rw [V_right, rightTerm_apply]

/-- The resident block of the third operand is the left factor of the arguments. -/
theorem lblk_apply (c : Dev nD) (t : Fin cfg0.N) (q : Fin 4096) (a : Fin 64) :
    lblk m c t (ix2 q a) = leftOf m c (ix2 q a) := by
  obtain ⟨-, -, -, -, e4, e5, -⟩ := idx_facts t
  show iblk m c 2 t (ix2 q a) = _
  unfold iblk
  rw [View.read_apply]
  have he : ((cfg0.win 2).blk t).view.emb (ix2 q a) = ix2 q a := by
    funext b
    apply Fin.ext
    match b with
    | ⟨0, _⟩ => show win0_2.index t (0 : Fin 2) * 4096 + 1 * q.val = q.val; rw [e4]; omega
    | ⟨1, _⟩ => show win0_2.index t (1 : Fin 2) * 64 + 1 * a.val = a.val; rw [e5]; omega
  rw [he]
  show (V m c main_v6 : S4096x64.Idx → EReal) (ix2 q a) = _
  rw [V_left]

/-- The resident block of the fourth operand is the bias as one row. -/
theorem bblk_apply (c : Dev nD) (t : Fin cfg0.N) (q : Fin 4096) :
    bblk m c t (ix2 (0 : Fin 1) q) = (m ((c : Thread nD τ).loc main_arg7) : S4096.Idx → EReal) (ix1 q) := by
  obtain ⟨-, -, -, -, -, -, e6, e7, -⟩ := idx_facts t
  show iblk m c 3 t (ix2 (0 : Fin 1) q) = _
  unfold iblk
  rw [View.read_apply]
  have he : ((cfg0.win 3).blk t).view.emb (ix2 (0 : Fin 1) q) = ix2 (0 : Fin 1) q := by
    funext b
    apply Fin.ext
    match b with
    | ⟨0, _⟩ => show win0_3.index t (0 : Fin 2) * 1 + 1 * 0 = 0; rw [e6]
    | ⟨1, _⟩ => show win0_3.index t (1 : Fin 2) * 4096 + 1 * q.val = q.val; rw [e7]; omega
  rw [he]
  show (V m c main_v14 : S1x4096.Idx → EReal) (ix2 (0 : Fin 1) q) = _
  rw [V_bias]
  exact shapeCast_12 _ _ (0 : Fin 1) q

/-! ## What a point writes back, the cover, the array -/

/-- WHAT POINT `t` WRITES BACK is block `t` of the layer through the two factors. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz]
  simp only [View.ld_unit_zero (S := S512x4096) hz, View.ld_unit_zero (S := S64x4096) hz, View.ld_unit_zero (S := S4096x64) hz,
    View.ld_unit_zero (S := S1x4096) hz]
  obtain ⟨-, -, -, -, -, -, -, -, e8, e9⟩ := idx_facts t
  funext j
  show k0_pay1 (F := Ideal) (xblk m c t) (rblk m c t) (lblk m c t) (bblk m c t) j = result m c (((cfg0.win 4).blk t).view.emb j)
  obtain ⟨p, q, rfl⟩ : ∃ (p : Fin 512) (q : Fin 4096), j = ix2 p q := ⟨j 0, j 1, eq_ix2 j⟩
  have he : ((cfg0.win 4).blk t).view.emb (ix2 p q)
      = ix2 (⟨t.val * 512 + p.val, by have := point_lt t; have := p.isLt; omega⟩ : Fin 8192) q := by
    funext b
    apply Fin.ext
    match b with
    | ⟨0, _⟩ => show win0_4.index t (0 : Fin 2) * 512 + 1 * p.val = t.val * 512 + p.val; rw [e8]; omega
    | ⟨1, _⟩ => show win0_4.index t (1 : Fin 2) * 4096 + 1 * q.val = q.val; rw [e9]; omega
  rw [he, payload_apply]
  simp only [xblk_apply, rblk_apply, lblk_apply, bblk_apply]
  rfl

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v15).slice (win0_4.rect t)).set ↔ _
  rw [View.set_slice_whole, Rect.mem_set_unit]
  exact Iff.rfl

/-- Row `r` of the result lies in the block of point `r / 512`. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have ht : (i 0).val / 512 < cfg0.N := lt_of_lt_of_eq (by omega : (i 0).val / 512 < 16) N_0.symm
  obtain ⟨-, -, -, -, -, -, -, -, e8, e9⟩ := idx_facts ⟨(i 0).val / 512, ht⟩
  refine ⟨⟨(i 0).val / 512, ht⟩, flush0_4 _, ?_⟩
  rw [mem_blk]
  intro a
  match a with
  | ⟨0, _⟩ =>
    show win0_4.index ⟨(i 0).val / 512, ht⟩ (0 : Fin 2) * 512 ≤ (i 0).val
      ∧ (i 0).val < win0_4.index ⟨(i 0).val / 512, ht⟩ (0 : Fin 2) * 512 + 512
    rw [e8]; show (i 0).val / 512 * 512 ≤ (i 0).val ∧ (i 0).val < (i 0).val / 512 * 512 + 512; omega
  | ⟨1, _⟩ =>
    show win0_4.index ⟨(i 0).val / 512, ht⟩ (1 : Fin 2) * 4096 ≤ (i 1).val
      ∧ (i 1).val < win0_4.index ⟨(i 0).val / 512, ht⟩ (1 : Fin 2) * 4096 + 4096
    rw [e9]; omega

/-- THE ARRAY after the run is the layer through the two factors. -/
theorem final (c : Dev nD) : (dats m 0 c).arrAt 4 cfg0.N = result m c :=
  (dats m 0 c).arrAt_eq_of_cover 4 (result m c) (fun t _ => flushed_eq m c t) cover

/-- The run, read: the result array at the layer through the two factors, the arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Hand

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finiteness.lean ====
/-
  The precondition, read: every entry of every argument is a real number.

  `finite_inputs` is the conjunction, argument by argument, of `jnp.all(|a| < inf)`; each conjunct says that every
  entry of that argument is a real number.
-/
import proofs.«161706_j91053306675883_1_alg».proof.Proof.Gen.Pre_finite_inputs
import proofs.«161706_j91053306675883_1_alg».proof.Proof.LibFinite
import proofs.«161706_j91053306675883_1_alg».proof.Proof.LibRealSums
import Idealize.ShloMosaic.Lib.Affine
import Idealize.ShloMosaic.Lib.ValueIdx

noncomputable section

namespace Cert.Pre_finite_inputs.Hand

open Cert.Pre_finite_inputs Cert.Pre_finite_inputs.Gen Idealize.ShloMosaic Cert.LibRealSums

/-- Under the precondition the eight arguments hold real numbers only. -/
theorem real_of_pre (a0 : FVec Ideal S8192x4096 .f32) (a1 : FVec Ideal S1x16x64 .f32) (a2 a3 a4 a5 : FVec Ideal S64x16x64 .f32)
    (a6 : FVec Ideal S64x16x1 .f32) (a7 : FVec Ideal S4096 .f32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  unfold fn fn_part1 fn_part2 at h0
  dsimp only at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => Cert.LibFinite.real_of_all a0 _ _ _ _ e0 i, fun i => Cert.LibFinite.real_of_all a1 _ _ _ _ e1 i,
    fun i => Cert.LibFinite.real_of_all a2 _ _ _ _ e2 i, fun i => Cert.LibFinite.real_of_all a3 _ _ _ _ e3 i,
    fun i => Cert.LibFinite.real_of_all a4 _ _ _ _ e4 i, fun i => Cert.LibFinite.real_of_all a5 _ _ _ _ e5 i,
    fun i => Cert.LibFinite.real_of_all a6 _ _ _ _ e6 i, fun i => Cert.LibFinite.real_of_all a7 _ _ _ _ e7 i⟩

end Cert.Pre_finite_inputs.Hand

end
-- ==== Proof.lean ====
/-
  A linear layer whose weight is a tensor train of six cores, `x · Wᵀ + b`.

  The reference contracts the six cores from the left into the whole weight `W` [4096, 4096] and multiplies. The
  kernel contracts the first three cores into a left factor `L` [4096, 64] and the last three, from the right, into
  a right factor `R` [64, 4096], with `W = L · R`, and computes `(x · Rᵀ) · Lᵀ + b` row block by row block. Under the
  precondition every entry of every argument is a real number, so every sum and product is the reals' own:
  distributivity re-brackets the chain of cores and two finite sums exchange. (At an infinite entry the two
  bracketings may differ, which is why the precondition is used.) The casts to bf16 inside the kernel are the
  identity on extended reals, and its two block products into zero accumulators are plain sums of products.

  Modules: `Spec` (the two bracketings and the law between them), `LibRealSums` (sums of real-valued extended
  reals), `LibCoordReads` (reshapes and `A · Bᵀ` at coordinates), `RefValue` and `LeftFactor` (the reference's result
  and its left factor), `KernelFactors` / `KernelPayload` / `KernelValue` (the kernel's result), `Finiteness` and
  `LibFinite` (the precondition, read).
-/
import proofs.«161706_j91053306675883_1_alg».proof.Defs
import proofs.«161706_j91053306675883_1_alg».proof.Proof.Gen.Kernel
import proofs.«161706_j91053306675883_1_alg».proof.Proof.Gen.Kernel.Skeleton
import proofs.«161706_j91053306675883_1_alg».proof.Proof.Gen.Kernel.Launch
import proofs.«161706_j91053306675883_1_alg».proof.Proof.Gen.Kernel.Points
import proofs.«161706_j91053306675883_1_alg».proof.Proof.Gen.Kernel.Frame
import proofs.«161706_j91053306675883_1_alg».proof.Proof.Gen.KernelIdeal
import proofs.«161706_j91053306675883_1_alg».proof.Proof.Gen.KernelIdeal.Skeleton
import proofs.«161706_j91053306675883_1_alg».proof.Proof.Gen.KernelIdeal.Launch
import proofs.«161706_j91053306675883_1_alg».proof.Proof.Gen.KernelIdeal.Points
import proofs.«161706_j91053306675883_1_alg».proof.Proof.Gen.KernelIdeal.Frame
import proofs.«161706_j91053306675883_1_alg».proof.Proof.Gen.ReferenceIdeal
import proofs.«161706_j91053306675883_1_alg».proof.Proof.Gen.Pre_finite_inputs
import proofs.«161706_j91053306675883_1_alg».proof.Proof.Gen.KernelIdeal.Value
import proofs.«161706_j91053306675883_1_alg».proof.Proof.Gen.ReferenceIdeal.Run
import proofs.«161706_j91053306675883_1_alg».proof.Proof.Gen.ReferenceIdeal.Read
import proofs.«161706_j91053306675883_1_alg».proof.Proof.Spec
import proofs.«161706_j91053306675883_1_alg».proof.Proof.RefValue
import proofs.«161706_j91053306675883_1_alg».proof.Proof.LeftFactor
import proofs.«161706_j91053306675883_1_alg».proof.Proof.KernelValue
import proofs.«161706_j91053306675883_1_alg».proof.Proof.Finiteness
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result is the layer through the two thin factors, the reference's the layer through the whole
    weight, of arguments that agree; under the precondition all entries are real and the two are equal. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  obtain ⟨r0, r1, r2, r3, r4, r5, r6, r7⟩ := Cert.Pre_finite_inputs.Hand.real_of_pre _ _ _ _ _ _ _ _ (hpre c)
  refine (Cert.ReferenceIdeal.Read.val_main_v20_eq (F := Ideal) _ _ _ _ _ _ _ _).trans ?_
  rw [Cert.ReferenceIdeal.RefValue.result_ref]
  exact Cert.TTSpec.viaWeight_eq_viaFactors _ r0 (Cert.ReferenceIdeal.RefValue.left_real _ _ _ r1 r2 r3) r4 r5 r6

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
